-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn_part1 {F : FTy → Type} [FloatOps F] (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S16384x1024 .f32) (main_arg3 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  natLt_1_32 : 1 < 32
  broadcasts_S1024x1_S1024x1024 : S1024x1.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .f32 = 32 ∨ (Rect.block (s := S16384x1024) S1024x1024.size (cc0_transform_4 i) (hinb0_4 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1x16384x1024 : Shape := ⟨3, ![1, 16384, 1024]⟩
abbrev S4x16384x1024 : Shape := ⟨3, ![4, 16384, 1024]⟩
abbrev S_ : Shape := ⟨0, ![]⟩
abbrev S4x16384 : Shape := ⟨2, ![4, 16384]⟩
abbrev S16384 : Shape := ⟨1, ![16384]⟩
abbrev S16384x1 : Shape := ⟨2, ![16384, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1x16384x1024, .f32⟩
  | .hbm, ⟨5, _⟩ => ⟨S1x16384x1024, .f32⟩
  | .hbm, ⟨6, _⟩ => ⟨S1x16384x1024, .f32⟩
  | .hbm, ⟨7, _⟩ => ⟨S1x16384x1024, .f32⟩
  | .hbm, ⟨8, _⟩ => ⟨S4x16384x1024, .f32⟩
  | .hbm, ⟨9, _⟩ => ⟨S_, .f32⟩
  | .hbm, ⟨10, _⟩ => ⟨S16384x1024, .f32⟩
  | .hbm, ⟨11, _⟩ => ⟨S_, .f32⟩
  | .hbm, ⟨12, _⟩ => ⟨S4x16384, .f32⟩
  | .hbm, ⟨13, _⟩ => ⟨S_, .f32⟩
  | .hbm, ⟨14, _⟩ => ⟨S4x16384, .f32⟩
  | .hbm, ⟨15, _⟩ => ⟨S4x16384, .i1⟩
  | .hbm, ⟨16, _⟩ => ⟨S4x16384, .i32⟩
  | .hbm, ⟨17, _⟩ => ⟨S_, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S16384x1, .f32⟩
  | .hbm, ⟨30, _⟩ => ⟨S16384x1024, .f32⟩
  | .hbm, ⟨31, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S16384x1024_S1x16384x1024_1_2 : S16384x1024.BroadcastsInDim S1x16384x1024 (![1, 2] : Fin 2 → Fin S1x16384x1024.rank)
  concatenates_S1x16384x1024_S1x16384x1024_S1x16384x1024_S1x16384x1024_S4x16384x1024_d0 : Shape.Concatenates [S1x16384x1024, S1x16384x1024, S1x16384x1024, S1x16384x1024] S4x16384x1024 0
  reducesTo_S4x16384x1024_S16384x1024_d0 : S4x16384x1024.ReducesTo [0] S16384x1024
  h_S_ : 0 < S_.numel
  reducesTo_S4x16384x1024_S4x16384_d2 : S4x16384x1024.ReducesTo [2] S4x16384
  bcast_S_S4x16384 : S_.BroadcastsInDim S4x16384 (![] : Fin 0 → Fin S4x16384.rank)
  natLt_1_32 : 1 < 32
  reducesTo_S4x16384_S16384_d0 : S4x16384.ReducesTo [0] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)

variable [Facts₀]

class Facts : Prop extends Facts₀ where

variable [Facts]
-- ==== Proof.Scale.lean ====
/-
  The mathematics of the fusion, with no program in sight.

  Four arrays x0 … x3 of 16384 rows by 1024 columns over the extended reals. Row r of the result is the
  entrywise sum x0 + x1 + x2 + x3 on that row, times a scale s(r) that depends only on the four row sums
  σk(r) = ∑ c, xk(r, c): let n(r) be the number of k with σk(r) = 0 exactly; then s(r) = n(r) + 1 if n(r) > 0,
  and s(r) = 1 otherwise.

  The count n can be taken in two ways. One converts each bit "σk = 0" to a float (0 or 1) and adds the four
  floats; the comparison n > 0 and the successor n + 1 are then float operations. The other widens each bit to
  a 32-bit word, adds the four words, compares the word with 0 as a signed integer, adds the word 1 and only then
  converts to a float. With four bits the word sum is at most 4, far from wrapping, and the conversion of a small
  integer to an extended real is exact, so the two agree: `scale_words`, by going through the sixteen values of
  the four bits.
-/
import Idealize.ShloMosaic.PureOps.Ideal
import Idealize.ShloMosaic.PureOps.Ideal.Laws
import Idealize.ShloMosaic.PureOps.Reduce
import Idealize.ShloMosaic.Lib.ValueIdx
import Idealize.ShloMosaic.Lib.IdealHost
import Idealize.ShloMosaic.Lib.KernelVsHost
import Mathlib.Algebra.BigOperators.Fin
import Mathlib.Data.BitVec

noncomputable section

open scoped BigOperators

namespace Cert.Fusion

open Idealize.ShloMosaic Idealize.ShloMosaic.ValueIdx

/-! ## One row's scale from its four row sums -/

/-- The bit "this row sum is exactly zero", widened to a 32-bit word: the word 1 or the word 0. -/
def zeroWord (σ : Ideal .f32) : BitVec 32 :=
  (FloatOps.cmpf (F := Ideal) .oeq σ (Scalar.ofBits .f32 0x00000000#32)).setWidth 32

/-- The number of zero row sums among four, counted in floats: each bit converted, the four floats added. -/
def zeroCount (σ0 σ1 σ2 σ3 : Ideal .f32) : Ideal .f32 :=
  FloatOps.addf (FloatOps.addf (FloatOps.addf (FloatOps.sitofp (F := Ideal) .f32 (zeroWord σ0)) (FloatOps.sitofp (F := Ideal) .f32 (zeroWord σ1)))
    (FloatOps.sitofp (F := Ideal) .f32 (zeroWord σ2))) (FloatOps.sitofp (F := Ideal) .f32 (zeroWord σ3))

/-- The row's scale: the count plus one where some row sum vanishes, one where none does. -/
def scale (σ0 σ1 σ2 σ3 : Ideal .f32) : Ideal .f32 :=
  Scalar.select (FloatOps.cmpf (F := Ideal) .ogt (zeroCount σ0 σ1 σ2 σ3) (Scalar.ofBits .f32 0x00000000#32))
    (FloatOps.addf (zeroCount σ0 σ1 σ2 σ3) (Scalar.ofBits .f32 0x3F800000#32)) (Scalar.ofBits .f32 0x3F800000#32)

/-- A fold of word addition over four indices, from the zero word, is the four words added in order. -/
theorem fold_addi_four (f : Fin 4 → BitVec 32) :
    (Finset.univ : Finset (Fin 4)).fold IntOp.addi 0#32 f = f 0 + f 1 + f 2 + f 3 := by
  have h : (Finset.univ : Finset (Fin 4)).fold IntOp.addi 0#32 f = ∑ k, f k := by
    rw [Finset.sum_eq_fold]; rfl
  rw [h, Fin.sum_univ_four]

theorem cmpf_ideal (p : CmpFPredicate) (x y : Ideal .f32) : FloatOps.cmpf (F := Ideal) p x y = Ideal.cmp p x y := rfl
theorem sitofp_ideal (b : BitVec 32) : FloatOps.sitofp (F := Ideal) .f32 b = ((b.toInt : ℝ) : EReal) := rfl

/-- Counting four bits as words and converting last gives what converting each bit and counting in floats gives:
    for each of the sixteen values of the bits both sides are the same small number. -/
theorem scale_bits (b0 b1 b2 b3 : BitVec 1) :
    Scalar.select (IntOp.cmpi .sgt (b0.setWidth 32 + b1.setWidth 32 + b2.setWidth 32 + b3.setWidth 32) 0#32)
        (FloatOps.sitofp (F := Ideal) .f32 (IntOp.addi (b0.setWidth 32 + b1.setWidth 32 + b2.setWidth 32 + b3.setWidth 32) 1#32))
        (FloatOps.ofBits (F := Ideal) .f32 0x3F800000#32)
      = Scalar.select (FloatOps.cmpf (F := Ideal) .ogt
          (FloatOps.addf (FloatOps.addf (FloatOps.addf (FloatOps.sitofp (F := Ideal) .f32 (b0.setWidth 32)) (FloatOps.sitofp (F := Ideal) .f32 (b1.setWidth 32))) (FloatOps.sitofp (F := Ideal) .f32 (b2.setWidth 32))) (FloatOps.sitofp (F := Ideal) .f32 (b3.setWidth 32)))
          (Scalar.ofBits .f32 0x00000000#32))
        (FloatOps.addf (FloatOps.addf (FloatOps.addf (FloatOps.addf (FloatOps.sitofp (F := Ideal) .f32 (b0.setWidth 32)) (FloatOps.sitofp (F := Ideal) .f32 (b1.setWidth 32))) (FloatOps.sitofp (F := Ideal) .f32 (b2.setWidth 32))) (FloatOps.sitofp (F := Ideal) .f32 (b3.setWidth 32))) (Scalar.ofBits .f32 0x3F800000#32))
        (Scalar.ofBits .f32 0x3F800000#32) := by
  rcases BitVec.eq_zero_or_eq_one b0 with rfl | rfl <;> rcases BitVec.eq_zero_or_eq_one b1 with rfl | rfl <;>
  rcases BitVec.eq_zero_or_eq_one b2 with rfl | rfl <;> rcases BitVec.eq_zero_or_eq_one b3 with rfl | rfl
  all_goals
    simp only [cmpf_ideal, sitofp_ideal, Ideal.addf_def, Ideal.ofBits_def, Ideal.ofBits_zero_f32, Ideal.ofBits_one_f32, IntOp.addi, toInt_setWidth_bit]
    simp (decide := true) [Scalar.select, IntOp.cmpi, Ideal.cmp]
    try (simp only [← EReal.coe_one, ← EReal.coe_add, EReal.coe_pos, EReal.coe_eq_coe_iff]; norm_num)
    try rfl

/-- The scale from the word count: four row sums' bits widened, the words added by a fold over the four, the sum
    compared with the zero word as a signed integer, one added, the result converted — is `scale`. -/
theorem scale_words (σ : Fin 4 → Ideal .f32) :
    Scalar.select (IntOp.cmpi .sgt ((Finset.univ : Finset (Fin 4)).fold IntOp.addi 0#32 (fun k => zeroWord (σ k))) 0#32)
        (FloatOps.sitofp (F := Ideal) .f32 (IntOp.addi ((Finset.univ : Finset (Fin 4)).fold IntOp.addi 0#32 (fun k => zeroWord (σ k))) 1#32))
        (FloatOps.ofBits (F := Ideal) .f32 0x3F800000#32)
      = scale (σ 0) (σ 1) (σ 2) (σ 3) := by
  rw [fold_addi_four]
  exact scale_bits _ _ _ _

/-! ## The whole result, index by index -/

/-- Row `r`'s sum of an array of 16384 rows by 1024 columns. -/
def rowSum (x : (⟨2, ![16384, 1024]⟩ : Shape).Idx → EReal) (r : Fin 16384) : EReal := ∑ k : Fin 1024, x (ix2 r k)

/-- The fused array: the four arrays added entry by entry, each row scaled by `scale` of its four row sums. -/
def fused (x0 x1 x2 x3 : (⟨2, ![16384, 1024]⟩ : Shape).Idx → EReal) : (⟨2, ![16384, 1024]⟩ : Shape).Idx → EReal := fun i =>
  (x0 i + x1 i + x2 i + x3 i) * scale (rowSum x0 (i 0)) (rowSum x1 (i 0)) (rowSum x2 (i 0)) (rowSum x3 (i 0))

end Cert.Fusion

end
-- ==== Proof.KernelBlocks.lean ====
/-
  The kernel's result array, read index by index: it is the fused array of Proof/Scale.lean.

  The grid has sixteen points; point t works on rows 1024·t … 1024·t + 1023 of every array, all 1024 columns at
  once, so a row of a block is a whole row of its array and the block's row sums are the array's row sums. The
  body adds the four input blocks entry by entry, takes each block's row sums, turns the bits "row sum = 0" into
  floats, counts them, forms the row's scale and multiplies: entry (p, q) of what it stores is entry (p, q) of
  the sum times `scale` of the four sums of row p. Read through the block's place in the array that is the fused
  array at row 1024·t + p, column q. The sixteen blocks tile the array (row r lies in block r / 1024), so the
  array after the run is the fused array everywhere.
-/
import proofs.«121434_j63462436765886_1_alg».proof.Proof.KernelValue
import proofs.«121434_j63462436765886_1_alg».proof.Proof.Scale
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Blocks

open Cert.KernelIdeal Cert.KernelIdeal.Gen Cert.KernelIdeal.ValueP Idealize.ShloMosaic Idealize.ShloMosaic.TcCoe Idealize.SL.Sem
open Idealize.ShloMosaic.ValueIdx Cert.Fusion
open Idealize.ShloMosaic.Pipeline (Dat)

/-! ## One block -/

theorem zero_offsets : (![0, 0] : Fin 2 → Nat) = fun _ => 0 := funext fun a => by fin_cases a <;> rfl

/-- A block's lane reduction at row `p` is the sum of that row's 1024 entries. -/
theorem block_rowsum (P : Vec Ideal S1024x1024 .f32) (p : Fin 1024) :
    (multiReduction (F := Ideal) .add [1] S1024 P 0x00000000#32 reduces_S1024x1024_S1024 (.inl rfl) rfl) (ix1 p)
      = ∑ k : Fin 1024, P (ix2 p k) := by
  refine (Ideal.multiReduction_add_single P 0x00000000#32 reduces_S1024x1024_S1024 (.inl rfl) rfl (ix1 p)).trans ?_
  exact Finset.sum_congr rfl fun k _ => congrArg P (funext fun a => Fin.ext (by match a with | ⟨0, _⟩ => rfl | ⟨1, _⟩ => rfl))

/-- WHAT THE BODY LEAVES in the output block at (p, q): the four input blocks' entries there added, times the
    scale of the four sums of row p. -/
theorem out_apply (x0 x1 x2 x3 : Vec Ideal S1024x1024 .f32) (p q : Fin 1024) :
    out0_4 x0 x1 x2 x3 (ix2 p q)
      = (x0 (ix2 p q) + x1 (ix2 p q) + x2 (ix2 p q) + x3 (ix2 p q))
        * scale (∑ k : Fin 1024, x0 (ix2 p k)) (∑ k : Fin 1024, x1 (ix2 p k)) (∑ k : Fin 1024, x2 (ix2 p k)) (∑ k : Fin 1024, x3 (ix2 p k)) := by
  unfold out0_4
  simp only [View.ld_unit_zero (S := S1024x1024) zero_offsets]
  refine (canon4_eq x0 x1 x2 x3 (ix2 p q)).trans ?_
  have a0 : ix4_0 (ix2 p q) = ix2 p q := funext fun a => by match a with | ⟨0, _⟩ => rfl | ⟨1, _⟩ => rfl
  have a1 : ix4_1 (ix2 p q) = ix2 p q := funext fun a => by match a with | ⟨0, _⟩ => rfl | ⟨1, _⟩ => rfl
  have a2 : ix4_2 (ix2 p q) = ix2 p q := funext fun a => by match a with | ⟨0, _⟩ => rfl | ⟨1, _⟩ => rfl
  have a3 : ix4_3 (ix2 p q) = ix2 p q := funext fun a => by match a with | ⟨0, _⟩ => rfl | ⟨1, _⟩ => rfl
  have r4 : ix4_4 (ix2 p q) = ix1 p := funext fun a => by match a with | ⟨0, _⟩ => rfl
  have r5 : ix4_5 (ix2 p q) = ix1 p := funext fun a => by match a with | ⟨0, _⟩ => rfl
  have r6 : ix4_6 (ix2 p q) = ix1 p := funext fun a => by match a with | ⟨0, _⟩ => rfl
  have r7 : ix4_7 (ix2 p q) = ix1 p := funext fun a => by match a with | ⟨0, _⟩ => rfl
  show FloatOps.mulf (FloatOps.addf (FloatOps.addf (FloatOps.addf (x0 (ix4_0 (ix2 p q))) (x1 (ix4_1 (ix2 p q)))) (x2 (ix4_2 (ix2 p q)))) (x3 (ix4_3 (ix2 p q))))
      (scale ((multiReduction (F := Ideal) .add [1] S1024 x0 0x00000000#32 reduces_S1024x1024_S1024 (.inl rfl) rfl) (ix4_4 (ix2 p q)))
        ((multiReduction (F := Ideal) .add [1] S1024 x1 0x00000000#32 reduces_S1024x1024_S1024 (.inl rfl) rfl) (ix4_5 (ix2 p q)))
        ((multiReduction (F := Ideal) .add [1] S1024 x2 0x00000000#32 reduces_S1024x1024_S1024 (.inl rfl) rfl) (ix4_6 (ix2 p q)))
        ((multiReduction (F := Ideal) .add [1] S1024 x3 0x00000000#32 reduces_S1024x1024_S1024 (.inl rfl) rfl) (ix4_7 (ix2 p q)))) = _
  rw [a0, a1, a2, a3, r4, r5, r6, r7, block_rowsum, block_rowsum, block_rowsum, block_rowsum]
  rfl

/-! ## The blocks in the array -/

variable (m : (ℓ : Loc nD τ sig) → Buf (Elt Ideal) ℓ) (ρ : Dev nD → PrngReg)

/-- The printed index maps, decided over the sixteen points: every window's block index at point `t` is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of point `t`'s block is row 1024·t + p of the array. -/
def rowOf (t : Fin cfg0.N) (p : Fin 1024) : Fin 16384 :=
  ⟨t.val * 1024 + p.val, by have ht : t.val < 16 := N_0 ▸ t.isLt; have hp := p.isLt; omega⟩

/-- Where entry (p, q) of point `t`'s output block lies in the array. -/
theorem emb_out (t : Fin cfg0.N) (p q : Fin 1024) : ((cfg0.win 4).blk t).view.emb (ix2 p q) = ix2 (rowOf t p) q := by
  obtain ⟨-, -, -, -, -, -, -, -, e0, e1⟩ := idx_facts t
  funext a; apply Fin.ext
  match a with
  | ⟨0, _⟩ => show win0_4.index t (0 : Fin 2) * 1024 + 1 * p.val = t.val * 1024 + p.val; rw [e0]; omega
  | ⟨1, _⟩ => show win0_4.index t (1 : Fin 2) * 1024 + 1 * q.val = q.val; rw [e1]; omega

/-- Each input block's entry (p, q) is its array's entry at row 1024·t + p, column q. -/
theorem in0_apply (c : Dev nD) (t : Fin cfg0.N) (p q : Fin 1024) : iblk m c 0 t (ix2 p q) = V m c main_arg0 (ix2 (rowOf t p) q) := by
  obtain ⟨e0, e1, -⟩ := idx_facts t
  show V m c main_arg0 (((cfg0.win 0).blk t).view.emb (ix2 p q)) = _
  refine congrArg (V m c main_arg0) (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 1024 + 1 * q.val = q.val; rw [e1]; omega
theorem in1_apply (c : Dev nD) (t : Fin cfg0.N) (p q : Fin 1024) : iblk m c 1 t (ix2 p q) = V m c main_arg1 (ix2 (rowOf t p) q) := by
  obtain ⟨-, -, e0, e1, -⟩ := idx_facts t
  show V m c main_arg1 (((cfg0.win 1).blk t).view.emb (ix2 p q)) = _
  refine congrArg (V m c main_arg1) (funext fun a => Fin.ext ?_)
  match a with
  | ⟨0, _⟩ => show win0_1.index t (0 : Fin 2) * 1024 + 1 * p.val = t.val * 1024 + p.val; rw [e0]; omega
  | ⟨1, _⟩ => show win0_1.index t (1 : Fin 2) * 1024 + 1 * q.val = q.val; rw [e1]; omega
theorem in2_apply (c : Dev nD) (t : Fin cfg0.N) (p q : Fin 1024) : iblk m c 2 t (ix2 p q) = V m c main_arg2 (ix2 (rowOf t p) q) := by
  obtain ⟨-, -, -, -, e0, e1, -⟩ := idx_facts t
  show V m c main_arg2 (((cfg0.win 2).blk t).view.emb (ix2 p q)) = _
  refine congrArg (V m c main_arg2) (funext fun a => Fin.ext ?_)
  match a with
  | ⟨0, _⟩ => show win0_2.index t (0 : Fin 2) * 1024 + 1 * p.val = t.val * 1024 + p.val; rw [e0]; omega
  | ⟨1, _⟩ => show win0_2.index t (1 : Fin 2) * 1024 + 1 * q.val = q.val; rw [e1]; omega
theorem in3_apply (c : Dev nD) (t : Fin cfg0.N) (p q : Fin 1024) : iblk m c 3 t (ix2 p q) = V m c main_arg3 (ix2 (rowOf t p) q) := by
  obtain ⟨-, -, -, -, -, -, e0, e1, -⟩ := idx_facts t
  show V m c main_arg3 (((cfg0.win 3).blk t).view.emb (ix2 p q)) = _
  refine congrArg (V m c main_arg3) (funext fun a => Fin.ext ?_)
  match a with
  | ⟨0, _⟩ => show win0_3.index t (0 : Fin 2) * 1024 + 1 * p.val = t.val * 1024 + p.val; rw [e0]; omega
  | ⟨1, _⟩ => show win0_3.index t (1 : Fin 2) * 1024 + 1 * q.val = q.val; rw [e1]; omega

/-- The four argument arrays as the region finds them, at their literal type. -/
abbrev arr0 (c : Dev nD) : Vec Ideal S16384x1024 .f32 := V m c main_arg0
abbrev arr1 (c : Dev nD) : Vec Ideal S16384x1024 .f32 := V m c main_arg1
abbrev arr2 (c : Dev nD) : Vec Ideal S16384x1024 .f32 := V m c main_arg2
abbrev arr3 (c : Dev nD) : Vec Ideal S16384x1024 .f32 := V m c main_arg3

/-- WHAT POINT `t` WRITES BACK is block `t` of the fused array of the argument arrays. -/
theorem flushed_eq (c : Dev nD) (t : Fin cfg0.N) :
    (dats m 0 c).flushed 4 t
      = ((cfg0.win 4).blk t).view.read (Elt Ideal) (fused (arr0 m c) (arr1 m c) (arr2 m c) (arr3 m c)) := by
  rw [flushed4]
  funext j
  obtain ⟨p, q, rfl⟩ : ∃ (p : Fin 1024) (q : Fin 1024), j = ix2 p q := ⟨j 0, j 1, eq_ix2 j⟩
  show out0_4 (iblk m c 0 t) (iblk m c 1 t) (iblk m c 2 t) (iblk m c 3 t) (ix2 p q)
    = fused (arr0 m c) (arr1 m c) (arr2 m c) (arr3 m c) (((cfg0.win 4).blk t).view.emb (ix2 p q))
  rw [emb_out, out_apply]
  simp only [in0_apply, in1_apply, in2_apply, in3_apply]
  rfl

/-- Every index of the array lies in the block of the point its row falls to. -/
theorem cover (i : S16384x1024.Idx) : ∃ t : Fin cfg0.N, (cfg0.win 4).flush t = true ∧ i ∈ ((cfg0.win 4).blk t).view.set := by
  have hi0 : (i 0).val < 16384 := (i 0).isLt
  have hi1 : (i 1).val < 1024 := (i 1).isLt
  let t : Fin cfg0.N := ⟨(i 0).val / 1024, by show (i 0).val / 1024 < grid0.N; rw [N_0]; omega⟩
  obtain ⟨-, -, -, -, -, -, -, -, e0, e1⟩ := idx_facts t
  have ht : t.val = (i 0).val / 1024 := rfl
  refine ⟨t, flush0_4 t, ?_⟩
  show i ∈ ((View.whole main_v0).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; rw [e0, ht]; omega
  | ⟨1, _⟩ => show win0_4.index t (1 : Fin 2) * 1024 ≤ (i 1).val ∧ (i 1).val < win0_4.index t (1 : Fin 2) * 1024 + 1024; rw [e1]; omega

/-- THE ARRAY after the run is the fused array of the arguments as launched. -/
theorem final (c : Dev nD) :
    (dats m 0 c).arrAt 4 cfg0.N
      = fused (m ((c : Thread nD τ).loc main_arg0)) (m ((c : Thread nD τ).loc main_arg1)) (m ((c : Thread nD τ).loc main_arg2)) (m ((c : Thread nD τ).loc main_arg3)) :=
  (dats m 0 c).arrAt_eq_of_cover 4 (fused (arr0 m c) (arr1 m c) (arr2 m c) (arr3 m c)) (fun t _ => flushed_eq m c t) cover

/-- The run, read: the result array ends at the fused array of the arguments, the arguments unchanged. -/
theorem run : θ_run defs (onTc (τ := τ) (main (F := Ideal))) ⟨m, fun _ => 0, ρ⟩ fun r => ∀ c : Dev nD,
      r.2.mem ((c : Thread nD τ).loc main_v0)
        = fused (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Blocks

end
-- ==== Proof.RefValue.lean ====
/-
  The reference program's result, read index by index: it is the fused array of Proof/Scale.lean.

  The reference stacks the four arrays along a new leading axis (each broadcast to one slab, the slabs
  concatenated), so entry (k, r, c) of the stack is xk(r, c). Its sum over the leading axis, from the zero
  word, is x0 + x1 + x2 + x3 at (r, c). Its sum over the last axis is the table of row sums σk(r). The bits
  "σk(r) = 0" are widened to words and added over k by an integer reduction, which is a fold of word addition over
  the four slabs; the rest (signed compare with 0, add 1, convert, select against 1.0, broadcast along the row)
  is the word-count spelling of the row's scale, which `Cert.Fusion.scale_words` identifies with `scale`.
-/
import proofs.«121434_j63462436765886_1_alg».proof.Proof.RefRead
import proofs.«121434_j63462436765886_1_alg».proof.Proof.Scale
import Idealize.ShloMosaic.Lib.ValueIdx
import Idealize.ShloMosaic.Lib.Pipeline.Value
import Idealize.ShloMosaic.PureOps.Reduce
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Fusion

variable (x0 x1 x2 x3 : (⟨S16384x1024, .f32⟩ : BufTy).Contents (Elt Ideal))

/-- Modality `k`'s array. -/
def pick : Fin 4 → (⟨S16384x1024, .f32⟩ : BufTy).Contents (Elt Ideal) := ![x0, x1, x2, x3]

/-- Slab `k` of the stack: modality `k`'s array under one leading unit axis. -/
def slab : Fin 4 → (⟨S1x16384x1024, .f32⟩ : BufTy).Contents (Elt Ideal) :=
  ![val_main_v0 (F := Ideal) x0, val_main_v1 (F := Ideal) x1, val_main_v2 (F := Ideal) x2, val_main_v3 (F := Ideal) x3]

/-- A slab at (0, r, c) is its array at (r, c). -/
theorem slab_apply (k : Fin 4) (r : Fin 16384) (c : Fin 1024) :
    slab x0 x1 x2 x3 k (ix3 (0 : Fin 1) r c) = pick x0 x1 x2 x3 k (ix2 r c) := by
  have e : ∀ (x : (⟨S16384x1024, .f32⟩ : BufTy).Contents (Elt Ideal)), x (idx_main_v0 (ix3 (0 : Fin 1) r c)) = x (ix2 r c) := fun x =>
    congrArg x (funext fun a => Fin.ext (by match a with | ⟨0, _⟩ => rfl | ⟨1, _⟩ => rfl))
  match k with
  | ⟨0, _⟩ => exact (val_main_v0_apply x0 _).trans (e x0)
  | ⟨1, _⟩ => exact (val_main_v1_apply x1 _).trans (e x1)
  | ⟨2, _⟩ => exact (val_main_v2_apply x2 _).trans (e x2)
  | ⟨3, _⟩ => exact (val_main_v3_apply x3 _).trans (e x3)

/-- THE STACK at (k, r, c) is modality `k`'s array at (r, c): the concatenation of four one-row slabs along the
    leading axis reads slab `k` at its one row. -/
theorem stack_apply (k : Fin 4) (r : Fin 16384) (c : Fin 1024) :
    val_main_v4 (F := Ideal) x0 x1 x2 x3 (ix3 k r c) = pick x0 x1 x2 x3 k (ix2 r c) := by
  unfold val_main_v4
  refine (concatenate_ofFn_unit_apply (t := S4x16384x1024) (s₁ := S1x16384x1024) 0 (slab x0 x1 x2 x3)
    concatenates_S1x16384x1024_S1x16384x1024_S1x16384x1024_S1x16384x1024_S4x16384x1024_d0 rfl rfl (ix3 k r c) k rfl
    (ix3 (0 : Fin 1) r c) ?_).trans (slab_apply x0 x1 x2 x3 k r c)
  intro b hb
  match b, hb with
  | ⟨0, _⟩, hb => exact absurd rfl hb
  | ⟨1, _⟩, _ => rfl
  | ⟨2, _⟩, _ => rfl

/-- THE ROW SUMS: the stack summed over its last axis, from the zero word, at (k, r) is modality `k`'s row sum. -/
theorem rowsums_apply (k : Fin 4) (r : Fin 16384) :
    val_main_v6 (F := Ideal) x0 x1 x2 x3 (ix2 k r) = rowSum (pick x0 x1 x2 x3 k) r := by
  rw [val_main_v6_apply, val_main_cst_0_apply, Ideal.ofBits_def, Ideal.ofBits_zero_f32, zero_add]
  unfold rowSum
  refine Finset.sum_congr rfl fun c _ => ?_
  rw [show idx_main_v6 (ix2 k r) c = ix3 k r c from
    funext fun a => Fin.ext (by match a with | ⟨0, _⟩ => rfl | ⟨1, _⟩ => rfl | ⟨2, _⟩ => rfl)]
  exact stack_apply x0 x1 x2 x3 k r c

/-- Over row `r` of the result, the source index with `k` on the reduced leading axis is (k, r). -/
theorem lift_lead (h : S4x16384.Reduces [0] S16384) (r : Fin 16384) (k : Fin 4) : h.lift (ix1 r) k = ix2 k r :=
  funext fun a => Fin.ext (by match a with | ⟨0, _⟩ => rfl | ⟨1, _⟩ => rfl)

/-- THE WORD COUNT: the integer reduction over the leading axis of the widened bits is the fold of word addition,
    from the zero word, over the four modalities' bits "row sum is zero". -/
theorem count_apply (r : Fin 16384) :
    val_main_v10 (F := Ideal) x0 x1 x2 x3 (ix1 r)
      = (Finset.univ : Finset (Fin 4)).fold IntOp.addi 0#32 (fun k => zeroWord (rowSum (pick x0 x1 x2 x3 k) r)) := by
  have hred : S4x16384.Reduces [0] S16384 := by decide
  unfold val_main_v10
  rw [Host.reduce_eq_fold_single IntOp.addi _ _ reducesTo_S4x16384_S16384_d0 hred h_S_ (ix1 r)]
  show (Finset.univ : Finset (Fin 4)).fold IntOp.addi 0#32 (val_main_v9 (F := Ideal) x0 x1 x2 x3 ∘ hred.lift (ix1 r)) = _
  refine congrArg (fun g : Fin 4 → BitVec 32 => (Finset.univ : Finset (Fin 4)).fold IntOp.addi 0#32 g) (funext fun (k : Fin 4) => ?_)
  show (val_main_v8 (F := Ideal) x0 x1 x2 x3 (hred.lift (ix1 r) k)).setWidth 32 = _
  rw [lift_lead hred r k, val_main_v8_apply, rowsums_apply]
  rfl

/-- THE SCALE of row `r`, as the reference spells it, is `scale` of the four row sums. -/
theorem scale_apply (r : Fin 16384) :
    val_main_v16 (F := Ideal) x0 x1 x2 x3 (ix1 r) = scale (rowSum x0 r) (rowSum x1 r) (rowSum x2 r) (rowSum x3 r) := by
  rw [val_main_v16_apply, val_main_v12_apply, val_main_v15_apply, val_main_v14_apply, count_apply]
  exact scale_words (fun k => rowSum (pick x0 x1 x2 x3 k) r)

/-- THE ENTRYWISE SUM: the stack summed over its leading axis, from the zero word, is the four arrays added in order. -/
theorem sum_apply (r : Fin 16384) (c : Fin 1024) :
    val_main_v5 (F := Ideal) x0 x1 x2 x3 (ix2 r c) = x0 (ix2 r c) + x1 (ix2 r c) + x2 (ix2 r c) + x3 (ix2 r c) := by
  have e : ∀ k : Fin 4, idx_main_v5 (ix2 r c) k = ix3 k r c := fun k =>
    funext fun a => Fin.ext (by match a with | ⟨0, _⟩ => rfl | ⟨1, _⟩ => rfl | ⟨2, _⟩ => rfl)
  rw [val_main_v5_apply, val_main_cst_apply, Ideal.ofBits_def, Ideal.ofBits_zero_f32, zero_add, Fin.sum_univ_four,
    e 0, e 1, e 2, e 3, stack_apply, stack_apply, stack_apply, stack_apply]
  rfl

/-- THE REFERENCE'S RESULT is the fused array. -/
theorem result_eq : val_main_v19 (F := Ideal) x0 x1 x2 x3 = fused x0 x1 x2 x3 := by
  funext i
  obtain ⟨r, c, rfl⟩ : ∃ (r : Fin 16384) (c : Fin 1024), i = ix2 r c := ⟨i 0, i 1, eq_ix2 i⟩
  rw [val_main_v19_apply, sum_apply, val_main_v18_apply, val_main_v17_apply,
    show idx_main_v17 (idx_main_v18 (ix2 r c)) = ix1 r from funext fun a => Fin.ext (by match a with | ⟨0, _⟩ => rfl),
    scale_apply]
  rfl

end Cert.ReferenceIdeal.RefValue

end
-- ==== Proof.lean ====
/-
  The proof of `Cert.Claim`: a row-block kernel that fuses four modalities against its jnp reference.

  Both programs compute, for four arrays x0 … x3 of 16384 rows by 1024 columns,
      out(r, c) = (x0 + x1 + x2 + x3)(r, c) · s(r),
  where s(r) = n(r) + 1 if n(r) > 0 and s(r) = 1 otherwise, n(r) being the number of the four row sums
  ∑ c, xk(r, c) that are exactly zero (Proof/Scale.lean: `fused`, `scale`). The kernel works on sixteen blocks of
  1024 whole rows and counts the zero row sums in floats; the reference stacks the arrays, reduces the stack along
  two different axes and counts in 32-bit integers. Over the extended reals the sums are the same sums whatever their
  order (addition there is commutative and associative, so no finiteness is used), the two comparisons with zero are
  the same comparison, and a count of at most four is the same number as a float and as an integer.

  The kernel's side is Proof/KernelBlocks.lean (the body's stored block entry by entry, the blocks tiling the array),
  the reference's side Proof/RefValue.lean (its operations read at an index one after the other); here the five
  claims are put together: the three frames from the runs, `preserves` trivially (the idealization rewrote nothing),
  and `algebraic` by setting the two runs' results side by side at the one function `fused`.
-/
import proofs.«121434_j63462436765886_1_alg».proof.Defs
import proofs.«121434_j63462436765886_1_alg».proof.Proof.Gen.Kernel
import proofs.«121434_j63462436765886_1_alg».proof.Proof.Gen.Kernel.Frame
import proofs.«121434_j63462436765886_1_alg».proof.Proof.Gen.KernelIdeal
import proofs.«121434_j63462436765886_1_alg».proof.Proof.Gen.KernelIdeal.Frame
import proofs.«121434_j63462436765886_1_alg».proof.Proof.Gen.ReferenceIdeal
import proofs.«121434_j63462436765886_1_alg».proof.Proof.Gen.Pre_finite_inputs
import proofs.«121434_j63462436765886_1_alg».proof.Proof.KernelValue
import proofs.«121434_j63462436765886_1_alg».proof.Proof.RefRun
import proofs.«121434_j63462436765886_1_alg».proof.Proof.RefRead
import proofs.«121434_j63462436765886_1_alg».proof.Proof.Scale
import proofs.«121434_j63462436765886_1_alg».proof.Proof.KernelBlocks
import proofs.«121434_j63462436765886_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the four arguments both programs end with the fused array of those arguments. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v19_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
